-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x3072 : Shape := ⟨2, ![4096, 3072]⟩
abbrev S4096x1 : Shape := ⟨2, ![4096, 1]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8x2048x4096 .f32) (main_arg1 : IVec S4096x3072 32) (main_arg2 : FVec F S4096x1 .f32) (main_arg3 : FVec F S4096x1 .f32) (main_arg4 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8x2048x4096 : Shape := ⟨3, ![8, 2048, 4096]⟩
abbrev S4096x3072 : Shape := ⟨2, ![4096, 3072]⟩
abbrev S4096x1 : Shape := ⟨2, ![4096, 1]⟩
abbrev S4096 : Shape := ⟨1, ![4096]⟩
abbrev S4096x1024x3 : Shape := ⟨3, ![4096, 1024, 3]⟩
abbrev S4096x1024x1 : Shape := ⟨3, ![4096, 1024, 1]⟩
abbrev S4096x1024 : Shape := ⟨2, ![4096, 1024]⟩
abbrev S_ : Shape := ⟨0, ![]⟩
abbrev S4096x1024x4 : Shape := ⟨3, ![4096, 1024, 4]⟩
abbrev S4096x4096 : Shape := ⟨2, ![4096, 4096]⟩
abbrev S16384x4096 : Shape := ⟨2, ![16384, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 46
  | .vmem => 9
  | .smem => 0
  | _ => 0

abbrev bufTy : (tb : Table) → Fin (tcTables nBuf tb) → BufTy
  | .hbm, ⟨0, _⟩ => ⟨S8x2048x4096, .f32⟩
  | .hbm, ⟨1, _⟩ => ⟨S4096x3072, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S4096x1024x3, .i32⟩
  | .hbm, ⟨6, _⟩ => ⟨S4096x1024x1, .i32⟩
  | .hbm, ⟨7, _⟩ => ⟨S4096x1024, .i32⟩
  | .hbm, ⟨8, _⟩ => ⟨S_, .i32⟩
  | .hbm, ⟨9, _⟩ => ⟨S4096x1024, .i32⟩
  | .hbm, ⟨10, _⟩ => ⟨S4096x1024, .i32⟩
  | .hbm, ⟨11, _⟩ => ⟨S4096x1024x1, .i32⟩
  | .hbm, ⟨12, _⟩ => ⟨S4096x1024, .i32⟩
  | .hbm, ⟨13, _⟩ => ⟨S_, .i32⟩
  | .hbm, ⟨14, _⟩ => ⟨S4096x1024, .i32⟩
  | .hbm, ⟨15, _⟩ => ⟨S4096x1024, .i32⟩
  | .hbm, ⟨16, _⟩ => ⟨S_, .i32⟩
  | .hbm, ⟨17, _⟩ => ⟨S4096x1024, .i32⟩
  | .hbm, ⟨18, _⟩ => ⟨S4096x1024, .i32⟩
  | .hbm, ⟨19, _⟩ => ⟨S4096x1024x1, .i32⟩
  | .hbm, ⟨20, _⟩ => ⟨S4096x1024, .i32⟩
  | .hbm, ⟨21, _⟩ => ⟨S_, .i32⟩
  | .hbm, ⟨22, _⟩ => ⟨S4096x1024, .i32⟩
  | .hbm, ⟨23, _⟩ => ⟨S4096x1024, .i32⟩
  | .hbm, ⟨24, _⟩ => ⟨S4096x1024x1, .i32⟩
  | .hbm, ⟨25, _⟩ => ⟨S4096x1024, .i32⟩
  | .hbm, ⟨26, _⟩ => ⟨S_, .i32⟩
  | .hbm, ⟨27, _⟩ => ⟨S4096x1024, .i32⟩
  | .hbm, ⟨28, _⟩ => ⟨S4096x1024, .i32⟩
  | .hbm, ⟨29, _⟩ => ⟨S4096x1024x1, .i32⟩
  | .hbm, ⟨30, _⟩ => ⟨S4096x1024x1, .i32⟩
  | .hbm, ⟨31, _⟩ => ⟨S4096x1024x1, .i32⟩
  | .hbm, ⟨32, _⟩ => ⟨S4096x1024x1, .i32⟩
  | .hbm, ⟨33, _⟩ => ⟨S4096x1024x4, .i32⟩
  | .hbm, ⟨34, _⟩ => ⟨S4096x4096, .i32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .bf16⟩
  | .hbm, ⟨41, _⟩ => ⟨S16384x4096, .f32⟩
  | .hbm, ⟨42, _⟩ => ⟨S16384x4096, .bf16⟩
  | .hbm, ⟨43, _⟩ => ⟨S1x4096, .f32⟩
  | .hbm, ⟨44, _⟩ => ⟨S16384x4096, .f32⟩
  | .hbm, ⟨45, _⟩ => ⟨S8x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096x3072_S4096x1024x3 : S4096x3072.ShapeCasts S4096x1024x3
  slices_S4096x1024x3_S4096x1024x1_0_0_0 : S4096x1024x3.Slices ![0, 0, 0] S4096x1024x1
  shapeCasts_S4096x1024x1_S4096x1024 : S4096x1024x1.ShapeCasts S4096x1024
  bcast_S_S4096x1024 : S_.BroadcastsInDim S4096x1024 (![] : Fin 0 → Fin S4096x1024.rank)
  slices_S4096x1024x3_S4096x1024x1_0_0_1 : S4096x1024x3.Slices ![0, 0, 1] S4096x1024x1
  slices_S4096x1024x3_S4096x1024x1_0_0_2 : S4096x1024x3.Slices ![0, 0, 2] S4096x1024x1
  bcast_S4096x1024_S4096x1024x1_0_1 : S4096x1024.BroadcastsInDim S4096x1024x1 (![0, 1] : Fin 2 → Fin S4096x1024x1.rank)
  concatenates_S4096x1024x1_S4096x1024x1_S4096x1024x1_S4096x1024x1_S4096x1024x4_d2 : Shape.Concatenates [S4096x1024x1, S4096x1024x1, S4096x1024x1, S4096x1024x1] S4096x1024x4 2
  shapeCasts_S4096x1024x4_S4096x4096 : S4096x1024x4.ShapeCasts S4096x4096
  bcast_S4096x1_S4096x4096_0_1 : S4096x1.BroadcastsInDim S4096x4096 (![0, 1] : Fin 2 → Fin S4096x4096.rank)
  bitsLt_bf16_f32 : FTy.bits .bf16 < FTy.bits .f32
  shapeCasts_S8x2048x4096_S16384x4096 : S8x2048x4096.ShapeCasts S16384x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S8x2048x4096 : S16384x4096.ShapeCasts S8x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .bf16 = 32 ∨ (Rect.block (s := S16384x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x4096.size a
  hwx0_3 : ∀ i : grid0.Coords, EltTy.bits .f32 = 32 ∨ (Rect.block (s := S16384x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v32) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x3072 : Shape := ⟨2, ![4096, 3072]⟩
abbrev S4096x1 : Shape := ⟨2, ![4096, 1]⟩
abbrev S4096 : Shape := ⟨1, ![4096]⟩
abbrev S4096x1024x3 : Shape := ⟨3, ![4096, 1024, 3]⟩
abbrev S4096x1024x1 : Shape := ⟨3, ![4096, 1024, 1]⟩
abbrev S4096x1024 : Shape := ⟨2, ![4096, 1024]⟩
abbrev S_ : Shape := ⟨0, ![]⟩
abbrev S4096x1024x4 : Shape := ⟨3, ![4096, 1024, 4]⟩
abbrev S4096x4096 : Shape := ⟨2, ![4096, 4096]⟩
abbrev S1x1x4096 : Shape := ⟨3, ![1, 1, 4096]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x3072, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S4096x1024x3, .i32⟩
  | .hbm, ⟨6, _⟩ => ⟨S4096x1024x1, .i32⟩
  | .hbm, ⟨7, _⟩ => ⟨S4096x1024, .i32⟩
  | .hbm, ⟨8, _⟩ => ⟨S_, .i32⟩
  | .hbm, ⟨9, _⟩ => ⟨S4096x1024, .i32⟩
  | .hbm, ⟨10, _⟩ => ⟨S4096x1024, .i32⟩
  | .hbm, ⟨11, _⟩ => ⟨S4096x1024x1, .i32⟩
  | .hbm, ⟨12, _⟩ => ⟨S4096x1024, .i32⟩
  | .hbm, ⟨13, _⟩ => ⟨S_, .i32⟩
  | .hbm, ⟨14, _⟩ => ⟨S4096x1024, .i32⟩
  | .hbm, ⟨15, _⟩ => ⟨S4096x1024, .i32⟩
  | .hbm, ⟨16, _⟩ => ⟨S_, .i32⟩
  | .hbm, ⟨17, _⟩ => ⟨S4096x1024, .i32⟩
  | .hbm, ⟨18, _⟩ => ⟨S4096x1024, .i32⟩
  | .hbm, ⟨19, _⟩ => ⟨S4096x1024x1, .i32⟩
  | .hbm, ⟨20, _⟩ => ⟨S4096x1024, .i32⟩
  | .hbm, ⟨21, _⟩ => ⟨S_, .i32⟩
  | .hbm, ⟨22, _⟩ => ⟨S4096x1024, .i32⟩
  | .hbm, ⟨23, _⟩ => ⟨S4096x1024, .i32⟩
  | .hbm, ⟨24, _⟩ => ⟨S4096x1024x1, .i32⟩
  | .hbm, ⟨25, _⟩ => ⟨S4096x1024, .i32⟩
  | .hbm, ⟨26, _⟩ => ⟨S_, .i32⟩
  | .hbm, ⟨27, _⟩ => ⟨S4096x1024, .i32⟩
  | .hbm, ⟨28, _⟩ => ⟨S4096x1024, .i32⟩
  | .hbm, ⟨29, _⟩ => ⟨S4096x1024x1, .i32⟩
  | .hbm, ⟨30, _⟩ => ⟨S4096x1024x1, .i32⟩
  | .hbm, ⟨31, _⟩ => ⟨S4096x1024x1, .i32⟩
  | .hbm, ⟨32, _⟩ => ⟨S4096x1024x1, .i32⟩
  | .hbm, ⟨33, _⟩ => ⟨S4096x1024x4, .i32⟩
  | .hbm, ⟨34, _⟩ => ⟨S4096x4096, .i32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S8x2048x4096, .f32⟩
  | .hbm, ⟨41, _⟩ => ⟨S1x1x4096, .f32⟩
  | .hbm, ⟨42, _⟩ => ⟨S8x2048x4096, .f32⟩
  | .hbm, ⟨43, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]

class Facts₀ : Prop where
  shapeCasts_S4096x3072_S4096x1024x3 : S4096x3072.ShapeCasts S4096x1024x3
  slices_S4096x1024x3_S4096x1024x1_0_0_0 : S4096x1024x3.Slices ![0, 0, 0] S4096x1024x1
  shapeCasts_S4096x1024x1_S4096x1024 : S4096x1024x1.ShapeCasts S4096x1024
  bcast_S_S4096x1024 : S_.BroadcastsInDim S4096x1024 (![] : Fin 0 → Fin S4096x1024.rank)
  slices_S4096x1024x3_S4096x1024x1_0_0_1 : S4096x1024x3.Slices ![0, 0, 1] S4096x1024x1
  slices_S4096x1024x3_S4096x1024x1_0_0_2 : S4096x1024x3.Slices ![0, 0, 2] S4096x1024x1
  bcast_S4096x1024_S4096x1024x1_0_1 : S4096x1024.BroadcastsInDim S4096x1024x1 (![0, 1] : Fin 2 → Fin S4096x1024x1.rank)
  concatenates_S4096x1024x1_S4096x1024x1_S4096x1024x1_S4096x1024x1_S4096x1024x4_d2 : Shape.Concatenates [S4096x1024x1, S4096x1024x1, S4096x1024x1, S4096x1024x1] S4096x1024x4 2
  shapeCasts_S4096x1024x4_S4096x4096 : S4096x1024x4.ShapeCasts S4096x4096
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.K.Kit.lean ====
/-
  The tiled matrix product with bias: the host lines around its one region, and what the region finds.
  @main is 39 host lines (the 6-bit unpacking of the packed weights, their dequantization, the two casts and the
  reshapes), the region, and one reshape after it. Here: the contents of every buffer when the region is entered, as the
  fold of the 39 lines over the launch memory; that no line before or after the region writes an argument array; each
  window's block at a grid point read off that fold; where the two conditionals of the body hold on the grid
  (the reduction coordinate is the innermost of the 16 x 4 x 4 grid, so they hold at the points = 0 and = 3 mod 4);
  where the output window is idle; and the frame claim's post from a run of the region to the library's frame post.
-/
import proofs.«404524_j81638738362815_1_alg».proof.Proof.Gen.Kernel.Launch
import proofs.«404524_j81638738362815_1_alg».proof.Proof.Gen.Kernel.Skeleton
import proofs.«404524_j81638738362815_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the 39 host lines folded over the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the region, the region, the line after it: it reduces to the region continued by
    the later line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline (only its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 0, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 1, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 2, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 3, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 4, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post gives the frame
    claim's post: no window stages an argument array, so each is read by the post's second clause, then as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c)⟩) h

/-! ## The body's two conditionals -/

/-- The first conditional (the accumulator is reset): the reduction coordinate is 0. -/
abbrev cond0_0 (i : grid0.Coords) : Prop := (Scalar.cmpi .ne (Scalar.extui (Scalar.cmpi .eq (BitVec.ofNat 32 (i 2).val) 0#32)) 0#32) = 1#1
/-- It holds at the points = 0 mod 4. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional (the bias is added and the block stored): the reduction coordinate is 3, the last. -/
abbrev cond0_1 (i : grid0.Coords) : Prop := k0_cond2 i = 1#1
/-- It holds at the points = 3 mod 4. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the reduction coordinate is not the last the body stores nothing into the output window: it is idle there, -/
theorem idleAt0_3 : ∀ t : Fin cfg0.N, ¬cond0_1 (grid0.coords t) → cfg0.idle 3 (grid0.coords t) = true := by decide +kernel
/-- and the pipeline does not write its block back. -/
theorem noFlush0_3 : ∀ t : Fin cfg0.N, ¬cond0_1 (grid0.coords t) → (cfg0.win 3).flush t = false := by decide +kernel
/-- Where it is the last the window is live. -/
theorem liveAt0_3 : ∀ t : Fin cfg0.N, cond0_1 (grid0.coords t) → cfg0.idle 3 (grid0.coords t) = false := by decide +kernel

/-! ## The staging memrefs at a point, and the accumulator -/

/-- One staging buffer of the output window, through which its contents are stated. -/
abbrev VO0_3 : View sig .tc .vmem S1024x1024 .f32 := (Memref.whole cc0_stg3_0 : Memref sig .tc .vmem S1024x1024 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
/-- The accumulator: a whole scoped buffer of the kernel's own, carried from point to point. -/
abbrev scM0_0 : Memref sig .tc .vmem S1024x1024 .f32 := Memref.whole cc0_scratch0
abbrev VS0_0 : View sig .tc .vmem S1024x1024 .f32 := scM0_0.view

/-- The region's invariant as the launch hands it over: the accumulator owned at some contents, and the random-number
    register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Frm

end
-- ==== Proof.K.RunA.lean ====
/-
  The body of the tiled matrix product at a point where the reduction coordinate is 0 (the first of its four steps):
  the accumulator is reset to zero, then the product of the two blocks is added to it; nothing is stored into the
  output window and the bias block is not read. The pieces the accumulator ends with are found by running the body.
-/
import proofs.«404524_j81638738362815_1_alg».proof.Proof.K.Kit

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the first conditional holds and the second does not: on whole staging memrefs, the inputs' at
    their contents, the output's at contents handed back untouched and the accumulator at anything, it runs to the
    continuation holding the inputs and the output as they were and the accumulator with the run's pieces written. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_bias_kernel i arg3 harg3 arg4 harg4 arg5 harg5 arg6 harg6 arg7 harg7) K } := by
  refine ⟨[], ?_, fun xi3 E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Frm

end
-- ==== Proof.K.RunB.lean ====
/-
  The body of the tiled matrix product at a point where the reduction coordinate is 1 or 2: the product of the two
  blocks is added to the accumulator as the step before left it; nothing is stored into the output window and the
  bias block is not read.
-/
import proofs.«404524_j81638738362815_1_alg».proof.Proof.K.RunA

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where neither conditional holds: the accumulator is taken at the contents the point before left. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_bias_kernel i arg3 harg3 arg4 harg4 arg5 harg5 arg6 harg6 arg7 harg7) K } := by
  refine ⟨[], ?_, fun xi3 E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Frm

end
-- ==== Proof.K.RunC.lean ====
/-
  The body of the tiled matrix product at a point where the reduction coordinate is 3, the last: the product of the
  two blocks is added to the accumulator as the step before left it, and the accumulator plus the bias row, broadcast
  along the rows, is stored into the output window's block.
-/
import proofs.«404524_j81638738362815_1_alg».proof.Proof.K.RunB

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the second conditional holds and the first does not: the output's staging memref is taken at
    anything and handed back with the run's pieces written. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_bias_kernel i arg3 harg3 arg4 harg4 arg5 harg5 arg6 harg6 arg7 harg7) K } := by
  refine ⟨?_, ?_, fun E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Frm

end
-- ==== Proof.K.Frame.lean ====
/-
  The tiled matrix product's region, point by point. Over the 16 x 4 x 4 grid the reduction coordinate is the
  innermost, so the 256 points come in runs of four: at the first of a run the accumulator is reset and takes the
  first partial product, at the next two it takes one more partial product each, and at the last it takes the fourth
  and the output block is stored as accumulator plus bias. Here: what the accumulator and the output window's buffer
  hold after each point, by recursion on the point; the region's invariant, which carries the accumulator at those
  contents from a point to the next; the pipeline's proof data; the body obligation, by cases on the point mod 4;
  the run of @main to the library's frame post; and the frame claim.
-/
import proofs.«404524_j81638738362815_1_alg».proof.Proof.K.RunC

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Nothing is stored into the output window in this case (it is idle and not written back): a placeholder nothing consults. -/
def out0_A_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) : Vec F S1024x1024 .f32 :=
  VO0_3.read (Elt F) (VO0_3.writes (Elt F) VO0_3.junk (kernelRun0_A c i arg3 harg3 arg4 harg4 arg5 harg5 arg6 harg6 arg7 harg7 hc0 hc1 x0 x1 x2).1)

/-- The stores into the accumulator cover it. -/
theorem scover0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) (y : S1024x1024.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S1024x1024.size (by sl_kernel_rfl) y

/-- What the accumulator holds after the body: the run's pieces read back. -/
def sout0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) : Vec F S1024x1024 .f32 :=
  VS0_0.read (Elt F) (VS0_0.writes (Elt F) VS0_0.junk (kernelRun0_A c i arg3 harg3 arg4 harg4 arg5 harg5 arg6 harg6 arg7 harg7 hc0 hc1 x0 x1 x2).2.1)

/-- Nothing is stored into the output window in this case (it is idle and not written back): a placeholder nothing consults. -/
def out0_B_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) : Vec F S1024x1024 .f32 :=
  VO0_3.read (Elt F) (VO0_3.writes (Elt F) VO0_3.junk (kernelRun0_B c i arg3 harg3 arg4 harg4 arg5 harg5 arg6 harg6 arg7 harg7 hc0 hc1 x0 x1 x2 xs0).1)

/-- The stores into the accumulator cover it. -/
theorem scover0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) (y : S1024x1024.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S1024x1024.size (by sl_kernel_rfl) y

/-- What the accumulator holds after the body: the run's pieces read back. -/
def sout0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) : Vec F S1024x1024 .f32 :=
  VS0_0.read (Elt F) (VS0_0.writes (Elt F) VS0_0.junk (kernelRun0_B c i arg3 harg3 arg4 harg4 arg5 harg5 arg6 harg6 arg7 harg7 hc0 hc1 x0 x1 x2 xs0).2.1)

/-- The one store into the output window covers its block. -/
theorem cover0_C_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1024x1024.size (by sl_kernel_rfl) y

/-- What the output window's staging buffer holds after the body: the run's pieces read back. -/
def out0_C_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) : Vec F S1024x1024 .f32 :=
  VO0_3.read (Elt F) (VO0_3.writes (Elt F) VO0_3.junk (kernelRun0_C c i arg3 harg3 arg4 harg4 arg5 harg5 arg6 harg6 arg7 harg7 hc0 hc1 x0 x1 x2 xs0).1)

/-- The stores into the accumulator cover it. -/
theorem scover0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S1024x1024.size (by sl_kernel_rfl) y

/-- What the accumulator holds after the body: the run's pieces read back. -/
def sout0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) : Vec F S1024x1024 .f32 :=
  VS0_0.read (Elt F) (VS0_0.writes (Elt F) VS0_0.junk (kernelRun0_C c i arg3 harg3 arg4 harg4 arg5 harg5 arg6 harg6 arg7 harg7 hc0 hc1 x0 x1 x2 xs0).2.1)

/-! ## What the buffers hold after each point -/

/-- What the output window's staging buffer and the accumulator hold after the body at position `n` (a pair): the
    case the position selects, run at the point's memrefs and input blocks, the accumulator taken at what
    position `n - 1` left. -/
def outsAt0 (c : Dev nD) : (n : ℕ) → n < cfg0.N → Vec F S1024x1024 .f32 × Vec F S1024x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 4 = 0 then
      if h1 : (n + 1) % 4 = 3 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

/-- At a point = 0 mod 4: the reset case. -/
theorem outsAt0_A (c : Dev nD) (t : Fin cfg0.N) (h0 : t.val % 4 = 0) (h1 : ¬t.val % 4 = 3) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- At a point = 1 or 2 mod 4: one more partial product over what the point before left. -/
theorem outsAt0_B (c : Dev nD) (t : Fin cfg0.N) (h0 : ¬t.val % 4 = 0) (h1 : ¬t.val % 4 = 3) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point = 3 mod 4: the last partial product, and the output block. -/
theorem outsAt0_C (c : Dev nD) (t : Fin cfg0.N) (h0 : ¬t.val % 4 = 0) (h1 : t.val % 4 = 3) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over (the accumulator at
    anything); afterwards the accumulator at what the point before left in it, and the random-number register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the
    output's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]

set_option maxHeartbeats 4800000 in
/-- The body at any point. The inputs' memrefs hold their blocks; the point mod 4 says which case it is in; the
    invariant hands the body the accumulator at what the point before left (at anything at the first point) and takes
    it back at this point's contents; the output window is handed back untouched where it is idle and with the stored
    block where it is live. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2]
  by_cases h0 : t.val % 4 = 0
  · have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dats m 0 c) 3 t (idleAt0_3 t hc1) (noFlush0_3 t hc1)]
    rw [outsAt0_A m c t h0 h1]
    unfold sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk m c 0 t) (iblk m c 1 t) (iblk m c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk m c 0 t) (iblk m c 1 t) (iblk m c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by omega
    have hc0 : ¬cond0_0 (grid0.coords t) := fun h => h0 ((hcond0_0 t).mp h)
    by_cases h1 : t.val % 4 = 3
    · have hc1 : cond0_1 (grid0.coords t) := (hcond0_1 t).mpr h1
      rw [show (dats m 0 c).leavesExact 3 t = owns (c : Thread nD τ) (ms0_3 t) fullShare ((dats m 0 c).after 3 t) from by
        unfold Dat.leavesExact; rw [liveAt0_3 t hc1], after0_3]
      rw [outsAt0_C m c t h0 h1]
      unfold out0_C_3 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ hc0 hc1 (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · have hc1 : ¬cond0_1 (grid0.coords t) := fun h => h1 ((hcond0_1 t).mp h)
      rw [Dat.leavesExact_idle (dats m 0 c) 3 t (idleAt0_3 t hc1) (noFlush0_3 t hc1)]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ hc0 hc1 (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives back what the launch handed over: the accumulator's contents
    are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of @main terminates, and every final state has every array of the pipeline at what
    the library computes from the proof data and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Frm

end
-- ==== Proof.KI.Kit.lean ====
import proofs.«404524_j81638738362815_1_alg».proof.Proof.K.Frame
/-
  The tiled matrix product with bias: the host lines around its one region, and what the region finds.
  @main is 39 host lines (the 6-bit unpacking of the packed weights, their dequantization, the two casts and the
  reshapes), the region, and one reshape after it. Here: the contents of every buffer when the region is entered, as the
  fold of the 39 lines over the launch memory; that no line before or after the region writes an argument array; each
  window's block at a grid point read off that fold; where the two conditionals of the body hold on the grid
  (the reduction coordinate is the innermost of the 16 x 4 x 4 grid, so they hold at the points = 0 and = 3 mod 4);
  where the output window is idle; and the frame claim's post from a run of the region to the library's frame post.
-/
import proofs.«404524_j81638738362815_1_alg».proof.Proof.Gen.KernelIdeal.Launch
import proofs.«404524_j81638738362815_1_alg».proof.Proof.Gen.KernelIdeal.Skeleton
import proofs.«404524_j81638738362815_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the 39 host lines folded over the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the region, the region, the line after it: it reduces to the region continued by
    the later line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline (only its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 0, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 1, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 2, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 3, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 4, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post gives the frame
    claim's post: no window stages an argument array, so each is read by the post's second clause, then as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c)⟩) h

/-! ## The body's two conditionals -/

/-- The first conditional (the accumulator is reset): the reduction coordinate is 0. -/
abbrev cond0_0 (i : grid0.Coords) : Prop := (Scalar.cmpi .ne (Scalar.extui (Scalar.cmpi .eq (BitVec.ofNat 32 (i 2).val) 0#32)) 0#32) = 1#1
/-- It holds at the points = 0 mod 4. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional (the bias is added and the block stored): the reduction coordinate is 3, the last. -/
abbrev cond0_1 (i : grid0.Coords) : Prop := k0_cond2 i = 1#1
/-- It holds at the points = 3 mod 4. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the reduction coordinate is not the last the body stores nothing into the output window: it is idle there, -/
theorem idleAt0_3 : ∀ t : Fin cfg0.N, ¬cond0_1 (grid0.coords t) → cfg0.idle 3 (grid0.coords t) = true := by decide +kernel
/-- and the pipeline does not write its block back. -/
theorem noFlush0_3 : ∀ t : Fin cfg0.N, ¬cond0_1 (grid0.coords t) → (cfg0.win 3).flush t = false := by decide +kernel
/-- Where it is the last the window is live. -/
theorem liveAt0_3 : ∀ t : Fin cfg0.N, cond0_1 (grid0.coords t) → cfg0.idle 3 (grid0.coords t) = false := by decide +kernel

/-! ## The staging memrefs at a point, and the accumulator -/

/-- One staging buffer of the output window, through which its contents are stated. -/
abbrev VO0_3 : View sig .tc .vmem S1024x1024 .f32 := (Memref.whole cc0_stg3_0 : Memref sig .tc .vmem S1024x1024 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
/-- The accumulator: a whole scoped buffer of the kernel's own, carried from point to point. -/
abbrev scM0_0 : Memref sig .tc .vmem S1024x1024 .f32 := Memref.whole cc0_scratch0
abbrev VS0_0 : View sig .tc .vmem S1024x1024 .f32 := scM0_0.view

/-- The region's invariant as the launch hands it over: the accumulator owned at some contents, and the random-number
    register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Frm

end
-- ==== Proof.KI.RunA.lean ====
import proofs.«404524_j81638738362815_1_alg».proof.Proof.K.Frame
/-
  The body of the tiled matrix product at a point where the reduction coordinate is 0 (the first of its four steps):
  the accumulator is reset to zero, then the product of the two blocks is added to it; nothing is stored into the
  output window and the bias block is not read. The pieces the accumulator ends with are found by running the body.
-/
import proofs.«404524_j81638738362815_1_alg».proof.Proof.KI.Kit

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the first conditional holds and the second does not: on whole staging memrefs, the inputs' at
    their contents, the output's at contents handed back untouched and the accumulator at anything, it runs to the
    continuation holding the inputs and the output as they were and the accumulator with the run's pieces written. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_bias_kernel i arg3 harg3 arg4 harg4 arg5 harg5 arg6 harg6 arg7 harg7) K } := by
  refine ⟨[], ?_, fun xi3 E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Frm

end
-- ==== Proof.KI.RunB.lean ====
import proofs.«404524_j81638738362815_1_alg».proof.Proof.K.Frame
/-
  The body of the tiled matrix product at a point where the reduction coordinate is 1 or 2: the product of the two
  blocks is added to the accumulator as the step before left it; nothing is stored into the output window and the
  bias block is not read.
-/
import proofs.«404524_j81638738362815_1_alg».proof.Proof.KI.RunA

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where neither conditional holds: the accumulator is taken at the contents the point before left. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_bias_kernel i arg3 harg3 arg4 harg4 arg5 harg5 arg6 harg6 arg7 harg7) K } := by
  refine ⟨[], ?_, fun xi3 E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Frm

end
-- ==== Proof.KI.RunC.lean ====
import proofs.«404524_j81638738362815_1_alg».proof.Proof.K.Frame
/-
  The body of the tiled matrix product at a point where the reduction coordinate is 3, the last: the product of the
  two blocks is added to the accumulator as the step before left it, and the accumulator plus the bias row, broadcast
  along the rows, is stored into the output window's block.
-/
import proofs.«404524_j81638738362815_1_alg».proof.Proof.KI.RunB

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the second conditional holds and the first does not: the output's staging memref is taken at
    anything and handed back with the run's pieces written. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_bias_kernel i arg3 harg3 arg4 harg4 arg5 harg5 arg6 harg6 arg7 harg7) K } := by
  refine ⟨?_, ?_, fun E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Frm

end
-- ==== Proof.KI.Frame.lean ====
import proofs.«404524_j81638738362815_1_alg».proof.Proof.K.Frame
/-
  The tiled matrix product's region, point by point. Over the 16 x 4 x 4 grid the reduction coordinate is the
  innermost, so the 256 points come in runs of four: at the first of a run the accumulator is reset and takes the
  first partial product, at the next two it takes one more partial product each, and at the last it takes the fourth
  and the output block is stored as accumulator plus bias. Here: what the accumulator and the output window's buffer
  hold after each point, by recursion on the point; the region's invariant, which carries the accumulator at those
  contents from a point to the next; the pipeline's proof data; the body obligation, by cases on the point mod 4;
  the run of @main to the library's frame post; and the frame claim.
-/
import proofs.«404524_j81638738362815_1_alg».proof.Proof.KI.RunC

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Nothing is stored into the output window in this case (it is idle and not written back): a placeholder nothing consults. -/
def out0_A_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) : Vec F S1024x1024 .f32 :=
  VO0_3.read (Elt F) (VO0_3.writes (Elt F) VO0_3.junk (kernelRun0_A c i arg3 harg3 arg4 harg4 arg5 harg5 arg6 harg6 arg7 harg7 hc0 hc1 x0 x1 x2).1)

/-- The stores into the accumulator cover it. -/
theorem scover0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) (y : S1024x1024.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S1024x1024.size (by sl_kernel_rfl) y

/-- What the accumulator holds after the body: the run's pieces read back. -/
def sout0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) : Vec F S1024x1024 .f32 :=
  VS0_0.read (Elt F) (VS0_0.writes (Elt F) VS0_0.junk (kernelRun0_A c i arg3 harg3 arg4 harg4 arg5 harg5 arg6 harg6 arg7 harg7 hc0 hc1 x0 x1 x2).2.1)

/-- Nothing is stored into the output window in this case (it is idle and not written back): a placeholder nothing consults. -/
def out0_B_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) : Vec F S1024x1024 .f32 :=
  VO0_3.read (Elt F) (VO0_3.writes (Elt F) VO0_3.junk (kernelRun0_B c i arg3 harg3 arg4 harg4 arg5 harg5 arg6 harg6 arg7 harg7 hc0 hc1 x0 x1 x2 xs0).1)

/-- The stores into the accumulator cover it. -/
theorem scover0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) (y : S1024x1024.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S1024x1024.size (by sl_kernel_rfl) y

/-- What the accumulator holds after the body: the run's pieces read back. -/
def sout0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) : Vec F S1024x1024 .f32 :=
  VS0_0.read (Elt F) (VS0_0.writes (Elt F) VS0_0.junk (kernelRun0_B c i arg3 harg3 arg4 harg4 arg5 harg5 arg6 harg6 arg7 harg7 hc0 hc1 x0 x1 x2 xs0).2.1)

/-- The one store into the output window covers its block. -/
theorem cover0_C_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1024x1024.size (by sl_kernel_rfl) y

/-- What the output window's staging buffer holds after the body: the run's pieces read back. -/
def out0_C_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) : Vec F S1024x1024 .f32 :=
  VO0_3.read (Elt F) (VO0_3.writes (Elt F) VO0_3.junk (kernelRun0_C c i arg3 harg3 arg4 harg4 arg5 harg5 arg6 harg6 arg7 harg7 hc0 hc1 x0 x1 x2 xs0).1)

/-- The stores into the accumulator cover it. -/
theorem scover0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S1024x1024.size (by sl_kernel_rfl) y

/-- What the accumulator holds after the body: the run's pieces read back. -/
def sout0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) : Vec F S1024x1024 .f32 :=
  VS0_0.read (Elt F) (VS0_0.writes (Elt F) VS0_0.junk (kernelRun0_C c i arg3 harg3 arg4 harg4 arg5 harg5 arg6 harg6 arg7 harg7 hc0 hc1 x0 x1 x2 xs0).2.1)

/-! ## What the buffers hold after each point -/

/-- What the output window's staging buffer and the accumulator hold after the body at position `n` (a pair): the
    case the position selects, run at the point's memrefs and input blocks, the accumulator taken at what
    position `n - 1` left. -/
def outsAt0 (c : Dev nD) : (n : ℕ) → n < cfg0.N → Vec F S1024x1024 .f32 × Vec F S1024x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 4 = 0 then
      if h1 : (n + 1) % 4 = 3 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

/-- At a point = 0 mod 4: the reset case. -/
theorem outsAt0_A (c : Dev nD) (t : Fin cfg0.N) (h0 : t.val % 4 = 0) (h1 : ¬t.val % 4 = 3) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- At a point = 1 or 2 mod 4: one more partial product over what the point before left. -/
theorem outsAt0_B (c : Dev nD) (t : Fin cfg0.N) (h0 : ¬t.val % 4 = 0) (h1 : ¬t.val % 4 = 3) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point = 3 mod 4: the last partial product, and the output block. -/
theorem outsAt0_C (c : Dev nD) (t : Fin cfg0.N) (h0 : ¬t.val % 4 = 0) (h1 : t.val % 4 = 3) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over (the accumulator at
    anything); afterwards the accumulator at what the point before left in it, and the random-number register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the
    output's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]

set_option maxHeartbeats 4800000 in
/-- The body at any point. The inputs' memrefs hold their blocks; the point mod 4 says which case it is in; the
    invariant hands the body the accumulator at what the point before left (at anything at the first point) and takes
    it back at this point's contents; the output window is handed back untouched where it is idle and with the stored
    block where it is live. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2]
  by_cases h0 : t.val % 4 = 0
  · have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dats m 0 c) 3 t (idleAt0_3 t hc1) (noFlush0_3 t hc1)]
    rw [outsAt0_A m c t h0 h1]
    unfold sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk m c 0 t) (iblk m c 1 t) (iblk m c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk m c 0 t) (iblk m c 1 t) (iblk m c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by omega
    have hc0 : ¬cond0_0 (grid0.coords t) := fun h => h0 ((hcond0_0 t).mp h)
    by_cases h1 : t.val % 4 = 3
    · have hc1 : cond0_1 (grid0.coords t) := (hcond0_1 t).mpr h1
      rw [show (dats m 0 c).leavesExact 3 t = owns (c : Thread nD τ) (ms0_3 t) fullShare ((dats m 0 c).after 3 t) from by
        unfold Dat.leavesExact; rw [liveAt0_3 t hc1], after0_3]
      rw [outsAt0_C m c t h0 h1]
      unfold out0_C_3 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ hc0 hc1 (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · have hc1 : ¬cond0_1 (grid0.coords t) := fun h => h1 ((hcond0_1 t).mp h)
      rw [Dat.leavesExact_idle (dats m 0 c) 3 t (idleAt0_3 t hc1) (noFlush0_3 t hc1)]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ hc0 hc1 (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives back what the launch handed over: the accumulator's contents
    are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of @main terminates, and every final state has every array of the pipeline at what
    the library computes from the proof data and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Frm

end
-- ==== Proof.KI.Pieces.lean ====
/-
  What the body's stores leave, named: the pieces a run of the body found for the accumulator and for the output
  block, read back, are the body's own arithmetic applied to what it loaded — the partial product added to the
  accumulator (to zero after a reset), and at the last reduction step the accumulator plus the broadcast bias row.
-/
import proofs.«404524_j81638738362815_1_alg».proof.Proof.KI.Frame
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a whole-block rectangle, as the library's lemmas take them. -/
theorem hz2 : (![0, 0] : Fin 2 → Nat) = fun _ => 0 := by
  funext a; match a with | ⟨0, _⟩ => rfl | ⟨1, _⟩ => rfl

/-- After a reset step the accumulator holds the first partial product added to zero. -/
theorem sout_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz2]
  simp only [View.readAt_eq_ld, harg3.read_unread, harg4.read_unread, harg5.read_unread, harg6.read_unread, harg7.read_unread, View.ld_unit_zero (S := S1024x1024) hz2, View.ld_unit_zero (S := S1x1024) hz2, View.readCov_unit_zero (S := S1024x1024) _ hz2]

/-- After a middle step it holds one more partial product added to what the step before left. -/
theorem sout_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz2]
  simp only [View.readAt_eq_ld, harg3.read_unread, harg4.read_unread, harg5.read_unread, harg6.read_unread, harg7.read_unread, View.ld_unit_zero (S := S1024x1024) hz2, View.ld_unit_zero (S := S1x1024) hz2, View.readCov_unit_zero (S := S1024x1024) _ hz2]

/-- After the last step likewise, -/
theorem sout_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz2]
  simp only [View.readAt_eq_ld, harg3.read_unread, harg4.read_unread, harg5.read_unread, harg6.read_unread, harg7.read_unread, View.ld_unit_zero (S := S1024x1024) hz2, View.ld_unit_zero (S := S1x1024) hz2, View.readCov_unit_zero (S := S1024x1024) _ hz2]

/-- and the output block holds that accumulator plus the bias row broadcast along the rows. -/
theorem out_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz2]
  simp only [View.readAt_eq_ld, harg3.read_unread, harg4.read_unread, harg5.read_unread, harg6.read_unread, harg7.read_unread, View.ld_unit_zero (S := S1024x1024) hz2, View.ld_unit_zero (S := S1x1024) hz2, View.readCov_unit_zero (S := S1024x1024) _ hz2]

end Cert.KernelIdeal.Frm

end
-- ==== Proof.KI.Pay.lean ====
/-
  The body's arithmetic read at an index, on the extended reals. The reset value is zero everywhere; one reduction
  step adds to the accumulator's entry (p, q) the sum over the 1024 columns k of the two blocks of
  x(p, k) * w(q, k) (the second block is contracted along its columns too: the weights are stored output-row major);
  the last step's output entry is the accumulator's entry plus the bias row's entry q.
-/
import proofs.«404524_j81638738362815_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Val

open Idealize.ShloMosaic Idealize.ShloMosaic.TcCoe Idealize.ShloMosaic.ValueIdx
open Cert.KernelIdeal Cert.KernelIdeal.Gen
open scoped BigOperators

/-- The left operand is indexed by the output's row … -/
theorem lhs_dot_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- … and the contraction position; -/
theorem lhs_dot_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- the right operand by the output's column … -/
theorem rhs_dot_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- … and the contraction position. -/
theorem rhs_dot_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The reset value is zero at every entry. -/
theorem pay1_apply (j : S1024x1024.Idx) : k0_pay1 (F := Ideal) j = (0 : EReal) := by
  unfold k0_pay1
  simp only [shapeCast_self]
  show Ideal.ofBits .f32 0x00000000#32 = 0
  exact Ideal.ofBits_zero_f32

/-- One reduction step at entry (p, q): the accumulator's entry plus the sum over k of x(p, k) * w(q, k). -/
theorem pay2_apply (acc : FVec Ideal S1024x1024 .f32) (x w : FVec Ideal S1024x1024 .bf16) (p q : Fin 1024) :
    k0_pay2 (F := Ideal) acc x w (ix2 p q) = acc (ix2 p q) + ∑ k : Fin 1024, x (ix2 p k) * w (ix2 q k) := by
  unfold k0_pay2
  simp only [shapeCast_self]
  rw [addf_apply]
  congr 1
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_dot_0 _ _
    | ⟨1, _⟩ => exact (lhs_dot_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_dot_0 _ _
    | ⟨1, _⟩ => exact (rhs_dot_1 _ _).trans hk)
  rw [el, er]

/-- The last step's output entry (p, q): the accumulator's entry plus the bias row's entry q. -/
theorem pay3_apply (acc : FVec Ideal S1024x1024 .f32) (b : FVec Ideal S1x1024 .f32) (p q : Fin 1024) :
    k0_pay3 (F := Ideal) acc b (ix2 p q) = acc (ix2 p q) + b (ix2 (0 : Fin 1) q) := by
  unfold k0_pay3
  simp only [shapeCast_self]
  rw [addf_apply]
  congr 1
  exact broadcastTo_apply b broadcasts_S1x1024_S1024x1024 (ix2 p q) (ix2 (0 : Fin 1) q) (fun a => by
    match a with
    | ⟨0, _⟩ => show (0 : Nat) = if (1 : Nat) = 1 then 0 else p.val; rw [if_pos rfl]
    | ⟨1, _⟩ => show q.val = if (1024 : Nat) = 1 then 0 else q.val; rw [if_neg (by decide)])

end Cert.KernelIdeal.Val

end
-- ==== Proof.KI.Acc.lean ====
/-
  The accumulator, summed. At the first point of a run of four the accumulator is zero plus that point's partial
  product; at each later point of the run it is what the point before left plus this point's partial product. So
  after the j-th point of the run it is zero plus the sum of the run's first j + 1 partial products, entry by entry;
  and at the run's last point the output block is that, with all four, plus the bias row's entry.
-/
import proofs.«404524_j81638738362815_1_alg».proof.Proof.KI.Pieces
import proofs.«404524_j81638738362815_1_alg».proof.Proof.KI.Pay

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

open Idealize.ShloMosaic.ValueIdx Cert.KernelIdeal.Val
open scoped BigOperators

/-- The three input blocks at position `n`, at their literal types. -/
abbrev xblk (c : Dev nD) (n : ℕ) (h : n < cfg0.N) : FVec Ideal S1024x1024 .bf16 := iblk m c 0 ⟨n, h⟩
abbrev wblk (c : Dev nD) (n : ℕ) (h : n < cfg0.N) : FVec Ideal S1024x1024 .bf16 := iblk m c 1 ⟨n, h⟩
abbrev bblk (c : Dev nD) (n : ℕ) (h : n < cfg0.N) : FVec Ideal S1x1024 .f32 := iblk m c 2 ⟨n, h⟩

/-- Position `n`'s partial product at entry (p, q): the sum over the block's 1024 columns k of x(p, k) * w(q, k)
    (zero past the grid, where nothing reads it). -/
def partialAt (c : Dev nD) (n : ℕ) (pq : Fin 1024 × Fin 1024) : EReal :=
  if h : n < cfg0.N then ∑ k : Fin 1024, xblk m c n h (ix2 pq.1 k) * wblk m c n h (ix2 pq.2 k) else 0

/-- The accumulator after position `n`, at entry (p, q). -/
def scrAt (c : Dev nD) (n : ℕ) (h : n < cfg0.N) (pq : Fin 1024 × Fin 1024) : EReal :=
  (outsAt0 m c n h).2 (ix2 pq.1 pq.2)

/-- At the first point of a run the accumulator is the first partial product added to the reset value. -/
theorem scr_reset (c : Dev nD) (n : ℕ) (h : n < cfg0.N) (h0 : n % 4 = 0) :
    (outsAt0 m c n h).2 = k0_pay2 (F := Ideal) (k0_pay1 (F := Ideal)) (xblk m c n h) (wblk m c n h) := by
  have h1 : ¬n % 4 = 3 := by omega
  rw [outsAt0_A m c ⟨n, h⟩ h0 h1]
  dsimp only
  exact sout_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩)

/-- At a later point it is one more partial product added to what the point before left. -/
theorem scr_step (c : Dev nD) (n : ℕ) (h : n + 1 < cfg0.N) (h0 : ¬(n + 1) % 4 = 0) :
    (outsAt0 m c (n + 1) h).2 = k0_pay2 (F := Ideal) ((outsAt0 m c n (Nat.lt_of_succ_lt h)).2) (xblk m c (n + 1) h) (wblk m c (n + 1) h) := by
  by_cases h1 : (n + 1) % 4 = 3
  · rw [outsAt0_C m c ⟨n + 1, h⟩ h0 h1]
    dsimp only
    exact sout_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) ((outsAt0 m c n (Nat.lt_of_succ_lt h)).2)
  · rw [outsAt0_B m c ⟨n + 1, h⟩ h0 h1]
    dsimp only
    exact sout_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) ((outsAt0 m c n (Nat.lt_of_succ_lt h)).2)

/-- At the last point of a run the output block is the accumulator there plus the broadcast bias row. -/
theorem out_step (c : Dev nD) (n : ℕ) (h : n + 1 < cfg0.N) (h1 : (n + 1) % 4 = 3) :
    (outsAt0 m c (n + 1) h).1 = k0_pay3 (F := Ideal) ((outsAt0 m c (n + 1) h).2) (bblk m c (n + 1) h) := by
  have h0 : ¬(n + 1) % 4 = 0 := by omega
  rw [outsAt0_C m c ⟨n + 1, h⟩ h0 h1]
  dsimp only
  refine (out_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) _).trans ?_
  exact congrArg (fun a => k0_pay3 (F := Ideal) a (bblk m c (n + 1) h))
    (sout_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) _).symm

/-- Entry by entry: the reset, -/
theorem scrAt_reset (c : Dev nD) (n : ℕ) (h : n < cfg0.N) (h0 : n % 4 = 0) :
    scrAt m c n h = fun pq => 0 + partialAt m c n pq := by
  funext pq
  unfold scrAt partialAt
  rw [dif_pos h, scr_reset m c n h h0, pay2_apply, pay1_apply]

/-- and the step. -/
theorem scrAt_step (c : Dev nD) (n : ℕ) (h : n + 1 < cfg0.N) (h0 : ¬(n + 1) % 4 = 0) :
    scrAt m c (n + 1) h = fun pq => scrAt m c n (Nat.lt_of_succ_lt h) pq + partialAt m c (n + 1) pq := by
  funext pq
  unfold scrAt partialAt
  rw [dif_pos h, scr_step m c n h h0, pay2_apply]

/-- The accumulator after position `t` is zero plus the partial products of its run up to `t`. -/
theorem scrAt_sum (c : Dev nD) (t : ℕ) (ht : t < cfg0.N) (pq : Fin 1024 × Fin 1024) :
    scrAt m c t ht pq = 0 + ∑ s ∈ Finset.range (t % 4 + 1), partialAt m c (4 * (t / 4) + s) pq := by
  have h' : 4 * (t / 4) + t % 4 < cfg0.N := by rw [Nat.div_add_mod]; exact ht
  rw [Pipeline.eq_accAt_of_mod (scrAt m c) 4 (fun n _ pq => 0 + partialAt m c n pq)
    (fun n _ acc pq => acc pq + partialAt m c n pq) (fun n h h0 => scrAt_reset m c n h h0)
    (fun n h h0 => scrAt_step m c n h h0) (by decide) t ht h']
  exact Pipeline.accAt_add_apply _ _ (fun _ => (0 : EReal)) (partialAt m c) (4 * (t / 4)) 3 (fun _ _ => rfl)
    (fun _ _ _ _ _ _ => rfl) (t % 4) (by omega) h' pq

/-- The output block written back at the last point `t` of a run, entry (p, q): zero plus the run's four partial
    products, plus the bias row's entry q. -/
theorem out_last (c : Dev nD) (t : Fin cfg0.N) (h3 : t.val % 4 = 3) (p q : Fin 1024) :
    (outsAt0 m c t.val t.isLt).1 (ix2 p q)
      = (0 + ∑ s ∈ Finset.range 4, partialAt m c (4 * (t.val / 4) + s) (p, q)) + bblk m c t.val t.isLt (ix2 (0 : Fin 1) q) := by
  obtain ⟨n, hn⟩ := t
  cases n with
  | zero => exact absurd h3 (by show ¬(0 : ℕ) % 4 = 3; decide)
  | succ n =>
    show (outsAt0 m c (n + 1) hn).1 (ix2 p q) = _
    rw [out_step m c n hn h3, pay3_apply]
    congr 1
    have e := scrAt_sum m c (n + 1) hn (p, q)
    have h3' : (n + 1) % 4 = 3 := h3
    rw [h3'] at e
    exact e

end Cert.KernelIdeal.Frm

end
-- ==== Proof.KI.Blocks.lean ====
/-
  Where each window's block sits in its array. The grid is 16 x 4 x 4, rows of output blocks by columns of output
  blocks by the reduction coordinate, so point t has row coordinate t / 16, column coordinate t / 4 % 4 and
  reduction coordinate t % 4. The first operand's block at t is rows 1024 (t / 16) ..., columns 1024 (t % 4) ...;
  the weights' block is rows 1024 (t / 4 % 4) ..., columns 1024 (t % 4) ...; the bias row's is columns
  1024 (t / 4 % 4) ...; the output's is rows 1024 (t / 16) ..., columns 1024 (t / 4 % 4) .... The output's blocks
  at the points = 3 mod 4, where they are written back, cover the whole array.
-/
import proofs.«404524_j81638738362815_1_alg».proof.Proof.KI.Frame
import Idealize.ShloMosaic.Lib.Pipeline.Value
import Idealize.ShloMosaic.Lib.ValueIdx

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The printed index maps in closed form, decided over the grid. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The first operand's block at point `t`, entry (p, k), is the array's entry (1024 (t / 16) + p, 1024 (t % 4) + k). -/
theorem xblk_apply (c : Dev nD) (t : Fin cfg0.N) (p k : Fin 1024) (r : Fin 16384) (kk : Fin 4096)
    (hr : r.val = 1024 * (t.val / 16) + p.val) (hk : kk.val = 1024 * (t.val % 4) + k.val) :
    (iblk m c 0 t : Vec F S1024x1024 .bf16) (ix2 p k) = (V m c main_v32 : Vec F S16384x4096 .bf16) (ix2 r kk) := by
  obtain ⟨e0, e1, -⟩ := idx_facts t
  unfold iblk
  rw [View.read_apply]
  show V m c main_v32 _ = V m c main_v32 _
  congr 1
  funext a; apply Fin.ext
  match a with
  | ⟨0, _⟩ => show win0_0.index t (0 : Fin 2) * 1024 + 1 * p.val = r.val; omega
  | ⟨1, _⟩ => show win0_0.index t (1 : Fin 2) * 1024 + 1 * k.val = kk.val; omega

/-- The weights' block at point `t`, entry (q, k), is the array's entry (1024 (t / 4 % 4) + q, 1024 (t % 4) + k). -/
theorem wblk_apply (c : Dev nD) (t : Fin cfg0.N) (q k : Fin 1024) (n : Fin 4096) (kk : Fin 4096)
    (hn : n.val = 1024 * (t.val / 4 % 4) + q.val) (hk : kk.val = 1024 * (t.val % 4) + k.val) :
    (iblk m c 1 t : Vec F S1024x1024 .bf16) (ix2 q k) = (V m c main_v30 : Vec F S4096x4096 .bf16) (ix2 n kk) := by
  obtain ⟨-, -, e2, e3, -⟩ := idx_facts t
  unfold iblk
  rw [View.read_apply]
  show V m c main_v30 _ = V m c main_v30 _
  congr 1
  funext a; apply Fin.ext
  match a with
  | ⟨0, _⟩ => show win0_1.index t (0 : Fin 2) * 1024 + 1 * q.val = n.val; omega
  | ⟨1, _⟩ => show win0_1.index t (1 : Fin 2) * 1024 + 1 * k.val = kk.val; omega

/-- The bias row's block at point `t`, entry (0, q), is the row's entry (0, 1024 (t / 4 % 4) + q). -/
theorem bblk_apply (c : Dev nD) (t : Fin cfg0.N) (q : Fin 1024) (n : Fin 4096)
    (hn : n.val = 1024 * (t.val / 4 % 4) + q.val) :
    (iblk m c 2 t : Vec F S1x1024 .f32) (ix2 (0 : Fin 1) q) = (V m c main_v33 : Vec F S1x4096 .f32) (ix2 (0 : Fin 1) n) := by
  obtain ⟨-, -, -, -, e4, e5, -⟩ := idx_facts t
  unfold iblk
  rw [View.read_apply]
  show V m c main_v33 _ = V m c main_v33 _
  congr 1
  funext a; apply Fin.ext
  match a with
  | ⟨0, _⟩ => show win0_2.index t (0 : Fin 2) * 1 + 1 * 0 = 0; omega
  | ⟨1, _⟩ => show win0_2.index t (1 : Fin 2) * 1024 + 1 * q.val = n.val; omega

/-- The output block at point `t`, entry (p, q), sits at the array's entry (1024 (t / 16) + p, 1024 (t / 4 % 4) + q). -/
theorem oblk_emb (t : Fin cfg0.N) (p q : Fin 1024) (r : Fin 16384) (n : Fin 4096)
    (hr : r.val = 1024 * (t.val / 16) + p.val) (hn : n.val = 1024 * (t.val / 4 % 4) + q.val) :
    ((cfg0.win 3).blk t).view.emb (ix2 p q) = (ix2 r n : S16384x4096.Idx) := by
  obtain ⟨-, -, -, -, -, -, e6, e7⟩ := idx_facts t
  funext a; apply Fin.ext
  match a with
  | ⟨0, _⟩ => show win0_3.index t (0 : Fin 2) * 1024 + 1 * p.val = r.val; omega
  | ⟨1, _⟩ => show win0_3.index t (1 : Fin 2) * 1024 + 1 * q.val = n.val; omega

/-- An index of the output array is in point `t`'s block iff each coordinate is in the block's range on its axis. -/
theorem mem_blk3 (t : Fin cfg0.N) (i : S16384x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v34).slice (win0_3.rect t)).set ↔ _
  rw [View.set_slice_whole, Rect.mem_set_unit]
  exact Iff.rfl

/-- Every entry (r, n) of the output array is in the block written back at the point with row coordinate r / 1024,
    column coordinate n / 1024 and the last reduction coordinate. -/
theorem cover3 (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hlt : 16 * ((i 0).val / 1024) + 4 * ((i 1).val / 1024) + 3 < 256 := by omega
  refine ⟨⟨16 * ((i 0).val / 1024) + 4 * ((i 1).val / 1024) + 3, lt_of_lt_of_eq hlt N_0.symm⟩, ?_, ?_⟩
  · exact (flush0_3 _).mpr (by show (16 * ((i 0).val / 1024) + 4 * ((i 1).val / 1024) + 3) % 4 = 3; omega)
  · rw [mem_blk3]
    obtain ⟨-, -, -, -, -, -, e6, e7⟩ := idx_facts ⟨16 * ((i 0).val / 1024) + 4 * ((i 1).val / 1024) + 3, lt_of_lt_of_eq hlt N_0.symm⟩
    have e6' : win0_3.index ⟨16 * ((i 0).val / 1024) + 4 * ((i 1).val / 1024) + 3, lt_of_lt_of_eq hlt N_0.symm⟩ (0 : Fin 2) = (16 * ((i 0).val / 1024) + 4 * ((i 1).val / 1024) + 3) / 16 := e6
    have e7' : win0_3.index ⟨16 * ((i 0).val / 1024) + 4 * ((i 1).val / 1024) + 3, lt_of_lt_of_eq hlt N_0.symm⟩ (1 : Fin 2) = (16 * ((i 0).val / 1024) + 4 * ((i 1).val / 1024) + 3) / 4 % 4 := e7
    intro a
    match a with
    | ⟨0, _⟩ =>
      show win0_3.index _ (0 : Fin 2) * 1024 ≤ (i 0).val ∧ (i 0).val < win0_3.index _ (0 : Fin 2) * 1024 + 1024
      rw [e6']; omega
    | ⟨1, _⟩ =>
      show win0_3.index _ (1 : Fin 2) * 1024 ≤ (i 1).val ∧ (i 1).val < win0_3.index _ (1 : Fin 2) * 1024 + 1024
      rw [e7']; omega

end Cert.KernelIdeal.Frm

end
-- ==== Proof.LibBlockSum.lean ====
/-
  A sum over n * b consecutive indices is the sum of n consecutive runs of b of them: the law that joins a contraction
  accumulated block by block along the contracted axis with the same contraction done at once. It holds in any
  commutative additive monoid (so on the extended reals with no finiteness assumed), for any number n of blocks and
  any block length b. Three forms: over initial segments of the naturals, over the finite index types with a function
  of the natural position, and for a function of the n * b positions themselves.
-/
import Mathlib.Algebra.BigOperators.Fin
import Mathlib.Algebra.BigOperators.Intervals

open scoped BigOperators

namespace Cert.LibBlockSum

variable {M : Type*} [AddCommMonoid M]

/-- A sum over the first `n * b` naturals, cut into `n` consecutive runs of `b`: run `s` holds the positions
    `b * s + x` for `x < b`. -/
theorem sum_range_mul (g : ℕ → M) (n b : ℕ) :
    ∑ k ∈ Finset.range (n * b), g k = ∑ s ∈ Finset.range n, ∑ x ∈ Finset.range b, g (b * s + x) := by
  induction n with
  | zero => simp
  | succ n ih => rw [Nat.succ_mul, Finset.sum_range_add, ih, Finset.sum_range_succ, Nat.mul_comm b n]

/-- The same with the positions and the positions inside a run as finite types. -/
theorem sum_fin_mul (g : ℕ → M) (n b : ℕ) :
    ∑ k : Fin (n * b), g k.val = ∑ s ∈ Finset.range n, ∑ x : Fin b, g (b * s + x.val) := by
  rw [Fin.sum_univ_eq_sum_range (fun k => g k) (n * b), sum_range_mul]
  exact Finset.sum_congr rfl fun s _ => (Fin.sum_univ_eq_sum_range (fun x => g (b * s + x)) b).symm

/-- The same for a function of the `N = n * b` positions themselves: run `s`'s position `x` is position `b * s + x`
    (the guard is true on every term: `s < n` and `x < b`). -/
theorem sum_fin_blocks {N : ℕ} (n b : ℕ) (hN : N = n * b) (f : Fin N → M) :
    ∑ k, f k = ∑ s ∈ Finset.range n, ∑ x : Fin b, (if h : b * s + x.val < N then f ⟨b * s + x.val, h⟩ else 0) := by
  subst hN
  have e := sum_fin_mul (fun k => if h : k < n * b then f ⟨k, h⟩ else 0) n b
  simp only [Fin.is_lt, dite_true, Fin.eta] at e
  exact e

end Cert.LibBlockSum
-- ==== Proof.KI.Final.lean ====
/-
  The output array after the region, as one function of the three arrays the region reads. Entry (r, n) is the sum
  over all 4096 columns k of x(r, k) * w(n, k), plus the bias row's entry n: the block written back at the last point
  of a run holds zero plus the run's four partial products plus the bias, the four partial products are the four
  consecutive runs of 1024 columns of that sum, and the written-back blocks cover the array.
-/
import proofs.«404524_j81638738362815_1_alg».proof.Proof.KI.Acc
import proofs.«404524_j81638738362815_1_alg».proof.Proof.KI.Blocks
import proofs.«404524_j81638738362815_1_alg».proof.Proof.LibBlockSum

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

open Idealize.ShloMosaic.ValueIdx Cert.KernelIdeal.Val
open scoped BigOperators

/-- The three arrays the region reads, as it finds them, at their literal types. -/
abbrev xarr (c : Dev nD) : FVec Ideal S16384x4096 .bf16 := V m c main_v32
abbrev warr (c : Dev nD) : FVec Ideal S4096x4096 .bf16 := V m c main_v30
abbrev barr (c : Dev nD) : FVec Ideal S1x4096 .f32 := V m c main_v33

/-- The block reads, restated over these names. -/
theorem xblk_eq (c : Dev nD) (n : ℕ) (h : n < cfg0.N) (p k : Fin 1024) (r : Fin 16384) (kk : Fin 4096)
    (hr : r.val = 1024 * (n / 16) + p.val) (hk : kk.val = 1024 * (n % 4) + k.val) :
    xblk m c n h (ix2 p k) = xarr m c (ix2 r kk) := xblk_apply m c ⟨n, h⟩ p k r kk hr hk
theorem wblk_eq (c : Dev nD) (n : ℕ) (h : n < cfg0.N) (q k : Fin 1024) (j : Fin 4096) (kk : Fin 4096)
    (hj : j.val = 1024 * (n / 4 % 4) + q.val) (hk : kk.val = 1024 * (n % 4) + k.val) :
    wblk m c n h (ix2 q k) = warr m c (ix2 j kk) := wblk_apply m c ⟨n, h⟩ q k j kk hj hk
theorem bblk_eq (c : Dev nD) (n : ℕ) (h : n < cfg0.N) (q : Fin 1024) (j : Fin 4096)
    (hj : j.val = 1024 * (n / 4 % 4) + q.val) :
    bblk m c n h (ix2 (0 : Fin 1) q) = barr m c (ix2 (0 : Fin 1) j) := bblk_apply m c ⟨n, h⟩ q j hj

/-- Entry (r, n) of the product with bias: the sum over the columns k of x(r, k) * w(n, k), plus b(n). -/
def okAt (c : Dev nD) (r : Fin 16384) (n : Fin 4096) : EReal :=
  (∑ k : Fin 4096, xarr m c (ix2 r k) * warr m c (ix2 n k)) + barr m c (ix2 (0 : Fin 1) n)

/-- The same as a whole array. -/
def Ok (c : Dev nD) : S16384x4096.Idx → EReal := fun i => okAt m c ⟨(i 0).val, idx2_lt0 i⟩ ⟨(i 1).val, idx2_lt1 i⟩

theorem Ok_ix2 (c : Dev nD) (r : Fin 16384) (n : Fin 4096) : Ok m c (ix2 r n) = okAt m c r n := rfl

/-- What the last point `t` of a run writes back is block `t` of that array. -/
theorem flushed3_eq (c : Dev nD) (t : Fin cfg0.N) (hf : (cfg0.win 3).flush t = true) :
    (dats m 0 c).flushed 3 t = ((cfg0.win 3).blk t).view.read (Elt Ideal) (Ok m c) := by
  have h3 : t.val % 4 = 3 := (flush0_3 t).mp hf
  have ht : t.val < 256 := lt_of_lt_of_eq t.isLt N_0
  show (cfg0.win 3).cut (grid0.coords t) ((dats m 0 c).after 3 t) = _
  rw [after0_3]
  funext j
  obtain ⟨p, q, rfl⟩ : ∃ (p q : Fin 1024), j = ix2 p q := ⟨j 0, j 1, eq_ix2 j⟩
  rw [View.read_apply]
  show (outsAt0 m c t.val t.isLt).1 (ix2 p q) = Ok m c (((cfg0.win 3).blk t).view.emb (ix2 p q))
  rw [oblk_emb t p q ⟨1024 * (t.val / 16) + p.val, by omega⟩ ⟨1024 * (t.val / 4 % 4) + q.val, by omega⟩ rfl rfl,
    out_last m c t h3 p q, Ok_ix2]
  unfold okAt
  refine congrArg₂ (· + ·) ?_ ?_
  · rw [Cert.LibBlockSum.sum_fin_blocks (N := 4096) 4 1024 rfl, zero_add]
    refine Finset.sum_congr rfl fun s hs => ?_
    have hs4 : s < 4 := Finset.mem_range.mp hs
    have hlt : 4 * (t.val / 4) + s < cfg0.N := lt_of_lt_of_eq (by omega) N_0.symm
    unfold partialAt
    rw [dif_pos hlt]
    refine Finset.sum_congr rfl fun x _ => ?_
    have hx : x.val < 1024 := x.isLt
    rw [dif_pos (by omega : 1024 * s + x.val < 4096)]
    rw [xblk_eq m c (4 * (t.val / 4) + s) hlt p x ⟨1024 * (t.val / 16) + p.val, by omega⟩ ⟨1024 * s + x.val, by omega⟩
        (by show 1024 * (t.val / 16) + p.val = 1024 * ((4 * (t.val / 4) + s) / 16) + p.val; omega)
        (by show 1024 * s + x.val = 1024 * ((4 * (t.val / 4) + s) % 4) + x.val; omega),
      wblk_eq m c (4 * (t.val / 4) + s) hlt q x ⟨1024 * (t.val / 4 % 4) + q.val, by omega⟩ ⟨1024 * s + x.val, by omega⟩
        (by show 1024 * (t.val / 4 % 4) + q.val = 1024 * ((4 * (t.val / 4) + s) / 4 % 4) + q.val; omega)
        (by show 1024 * s + x.val = 1024 * ((4 * (t.val / 4) + s) % 4) + x.val; omega)]
  · exact bblk_eq m c t.val t.isLt q ⟨1024 * (t.val / 4 % 4) + q.val, by omega⟩ rfl

/-- The output array after the run. -/
theorem final3 (c : Dev nD) : (dats m 0 c).arrAt 3 cfg0.N = Ok m c :=
  (dats m 0 c).arrAt_eq_of_cover 3 (Ok m c) (fun t hf => flushed3_eq m c t hf) cover3

end Cert.KernelIdeal.Frm

end
-- ==== Proof.KI.Value.lean ====
/-
  The idealized kernel's run, read: every weakly fair execution of @main terminates with the result buffer holding
  the reshape to 8 x 2048 x 4096 of the product-with-bias array, and the five argument arrays as launched. The result
  buffer is written by the one host line after the region, a reshape of the region's output array.
-/
import proofs.«404524_j81638738362815_1_alg».proof.Proof.KI.Final
import Idealize.ShloMosaic.Lib.StableHlo.Run

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

open Idealize.ShloMosaic.ValueIdx Cert.KernelIdeal.Val
open scoped BigOperators

/-- The line after the region leaves in the result buffer the reshape of the output array. -/
theorem tail_v35 (c : Dev nD) :
    Pipeline.afterTail₀ cfgs (dats m) 0 (V0 m) [hostOps1] c main_v35
      = shapeCast S8x2048x4096 (Ok m c) shapeCasts_S16384x4096_S8x2048x4096 := by
  unfold Pipeline.afterTail₀
  show StableHlo.after hostOps1 _ (Proc.devRef .tc main_v35) = _
  after_results
  have e : Pipeline.withArrays (cfgs 0).spec c (V0 m c) (fun w => (dats m 0 c).arrAt w (cfgs 0).N) (Proc.devRef .tc main_v34) = Ok m c :=
    (Pipeline.withArrays_arr spec0 launch0.win.arr_inj c _ _ 3).trans (final3 m c)
  rw [e]
  rfl

/-- The run of @main with its result named. -/
theorem run_value : θ_run defs (onTc (τ := τ) (main (F := Ideal))) ⟨m, fun _ => 0, ρ⟩ (fun r => ∀ c : Dev nD,
      r.2.mem ((c.tc : Thread nD τ).loc main_v35) = shapeCast S8x2048x4096 (Ok m c) shapeCasts_S16384x4096_S8x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v35 (Pipeline.mem_restRefs_of main_v35 (by decide) (by decide))).trans (tail_v35 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.Frm

end
-- ==== Proof.KI.Host.lean ====
/-
  What the host lines before the region put in the arrays the region reads, entry by entry on the extended reals.
  The first operand is the activations reshaped from 8 x 2048 x 4096 to 16384 x 4096 (row a * 2048 + b is row b of
  batch a) and narrowed to bf16, which changes nothing on the extended reals; the bias row is the bias vector
  reshaped to 1 x 4096.
-/
import proofs.«404524_j81638738362815_1_alg».proof.Proof.KI.Final
import Idealize.ShloMosaic.Lib.StableHlo.Run

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

open Idealize.ShloMosaic.ValueIdx Cert.KernelIdeal.Val
open scoped BigOperators

/-- The first operand as the host lines compute it. -/
theorem V_v32 (c : Dev nD) : (V m c main_v32 : Vec Ideal S16384x4096 .bf16)
    = truncf (F := Ideal) .bf16 (shapeCast S16384x4096 (m ((c : Thread nD τ).loc main_arg0)) shapeCasts_S8x2048x4096_S16384x4096) bitsLt_bf16_f32 := by
  show StableHlo.after hostOps0 (fun b => m (c, b)) (Proc.devRef .tc main_v32) = _
  after_results
  rfl

/-- The bias row as the host lines compute it. -/
theorem V_v33 (c : Dev nD) : (V m c main_v33 : Vec Ideal S1x4096 .f32)
    = shapeCast S1x4096 (m ((c : Thread nD τ).loc main_arg4)) shapeCasts_S4096_S1x4096 := by
  show StableHlo.after hostOps0 (fun b => m (c, b)) (Proc.devRef .tc main_v33) = _
  after_results
  rfl

/-- Entry (a * 2048 + b, k) of the first operand is entry (a, b, k) of the activations. -/
theorem xarr_apply (c : Dev nD) (a : Fin 8) (b : Fin 2048) (k : Fin 4096) (r : Fin 16384) (hr : r.val = a.val * 2048 + b.val) :
    xarr m c (ix2 r k) = (m ((c : Thread nD τ).loc main_arg0) : FVec Ideal S8x2048x4096 .f32) (ix3 a b k) := by
  show (V m c main_v32 : Vec Ideal S16384x4096 .bf16) (ix2 r k) = _
  rw [V_v32]
  show shapeCast S16384x4096 (m ((c : Thread nD τ).loc main_arg0)) shapeCasts_S8x2048x4096_S16384x4096 (ix2 r k) = _
  exact shapeCast_apply _ shapeCasts_S8x2048x4096_S16384x4096 (ix2 r k) (ix3 a b k)
    (by rewrite [Shape.rowMajor_val_three, Shape.rowMajor_val_two]
        show (a.val * 2048 + b.val) * 4096 + k.val = r.val * 4096 + k.val
        rw [hr])

/-- Entry (0, n) of the bias row is entry n of the bias vector. -/
theorem barr_apply (c : Dev nD) (n : Fin 4096) :
    barr m c (ix2 (0 : Fin 1) n) = (m ((c : Thread nD τ).loc main_arg4) : FVec Ideal S4096 .f32) (ix1 n) := by
  show (V m c main_v33 : Vec Ideal S1x4096 .f32) (ix2 (0 : Fin 1) n) = _
  rw [V_v33]
  exact shapeCast_apply _ shapeCasts_S4096_S1x4096 (ix2 (0 : Fin 1) n) (ix1 n)
    (by rewrite [Shape.rowMajor_val_one, Shape.rowMajor_val_two]
        show n.val = 0 * 4096 + n.val
        omega)

end Cert.KernelIdeal.Frm

end
-- ==== Proof.KI.HostW.lean ====
/-
  The weights the region reads are the dequantized weights the reference computes, narrowed to bf16: the host lines
  that unpack the four 6-bit fields of each group of three packed words, subtract the zero point and scale are the
  same lines in the two programs, applied to the same three arguments.
-/
import proofs.«404524_j81638738362815_1_alg».proof.Proof.KI.Kit
import proofs.«404524_j81638738362815_1_alg».proof.Proof.Gen.ReferenceIdeal.Read
import Idealize.ShloMosaic.Lib.StableHlo.Run

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The weights' array as the host lines before the region compute it. -/
theorem V_v30 (c : Dev nD) : (V m c main_v30 : Vec F S4096x4096 .bf16)
    = truncf .bf16 (Cert.ReferenceIdeal.Read.val_main_v29 (F := F) (m ((c : Thread nD τ).loc main_arg1)) (m ((c : Thread nD τ).loc main_arg2)) (m ((c : Thread nD τ).loc main_arg3))) bitsLt_bf16_f32 := by
  show StableHlo.after hostOps0 (fun b => m (c, b)) (Proc.devRef .tc main_v30) = _
  after_results
  rfl

end Cert.KernelIdeal.Frm

end
-- ==== Proof.Bridge.lean ====
/-
  The two idealized programs compute one function. The kernel's result at (a, b, n) is, through the last reshape,
  entry (a * 2048 + b, n) of the product-with-bias array: the sum over the 4096 columns k of the activations at
  (a, b, k) times the dequantized weights at (n, k), plus the bias at n. The reference's einsum at (a, b, n) is that
  sum, and its broadcast bias that bias. The dequantized weights are one function of the packed words, the scales and
  the zero points in the two programs (the same host lines), so nothing about them is opened.
-/
import proofs.«404524_j81638738362815_1_alg».proof.Proof.KI.Value
import proofs.«404524_j81638738362815_1_alg».proof.Proof.KI.Host
import proofs.«404524_j81638738362815_1_alg».proof.Proof.KI.HostW
import proofs.«404524_j81638738362815_1_alg».proof.Proof.Gen.ReferenceIdeal.Read

noncomputable section

namespace Cert.Bridge

open Idealize.ShloMosaic Idealize.ShloMosaic.TcCoe Idealize.ShloMosaic.ValueIdx Idealize.SL.Sem
open Cert.ReferenceIdeal.Read
open scoped BigOperators

/-- The reference's result at (a, b, n): the contraction over k, plus the bias at n. -/
theorem ref_apply (x0 : (⟨Cert.ReferenceIdeal.S8x2048x4096, .f32⟩ : BufTy).Contents (Elt Ideal)) (x1 : (⟨Cert.ReferenceIdeal.S4096x3072, .i32⟩ : BufTy).Contents (Elt Ideal))
    (x2 x3 : (⟨Cert.ReferenceIdeal.S4096x1, .f32⟩ : BufTy).Contents (Elt Ideal)) (x4 : (⟨Cert.ReferenceIdeal.S4096, .f32⟩ : BufTy).Contents (Elt Ideal))
    (a : Fin 8) (b : Fin 2048) (n : Fin 4096) :
    val_main_v33 (F := Ideal) x0 x1 x2 x3 x4 (ix3 a b n)
      = (∑ k : Fin 4096, x0 (ix3 a b k) * val_main_v29 (F := Ideal) x1 x2 x3 (ix2 n k)) + x4 (ix1 n) := by
  have el : ∀ k : Fin 4096, lidx_main_v30 (ix3 a b n) k = ix3 a b k := fun k => funext fun d => Fin.ext (by
    match d with | ⟨0, _⟩ => rfl | ⟨1, _⟩ => rfl | ⟨2, _⟩ => rfl)
  have er : ∀ k : Fin 4096, ridx_main_v30 (ix3 a b n) k = ix2 n k := fun k => funext fun d => Fin.ext (by
    match d with | ⟨0, _⟩ => rfl | ⟨1, _⟩ => rfl)
  have eb : idx_main_v31 (idx_main_v32 (ix3 a b n)) = ix1 n := funext fun d => Fin.ext (by
    match d with | ⟨0, _⟩ => rfl)
  rw [val_main_v33_apply, val_main_v30_apply, val_main_v32_apply, val_main_v31_apply, Ideal.addf_def, eb]
  exact congrArg₂ (· + ·) (Finset.sum_congr rfl fun k _ => by rw [el k, er k]) rfl

variable (m : (ℓ : Loc Cert.KernelIdeal.nD Cert.KernelIdeal.τ Cert.KernelIdeal.sig) → Buf (Elt Ideal) ℓ)

/-- The weights the region reads, at (n, k): the dequantized weights there (narrowing to bf16 is the identity on the
    extended reals). -/
theorem warr_apply (c : Dev Cert.KernelIdeal.nD) (n k : Fin 4096) :
    Cert.KernelIdeal.Frm.warr m c (ix2 n k) = val_main_v29 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (ix2 n k) :=
  congrFun (Cert.KernelIdeal.Frm.V_v30 (F := Ideal) m c) (ix2 n k)

/-- The kernel's result at (a, b, n) is the product-with-bias array's entry (a * 2048 + b, n). -/
theorem ker_apply (c : Dev Cert.KernelIdeal.nD) (a : Fin 8) (b : Fin 2048) (n : Fin 4096) (r : Fin 16384) (hr : r.val = a.val * 2048 + b.val) :
    shapeCast Cert.KernelIdeal.S8x2048x4096 (Cert.KernelIdeal.Frm.Ok m c) Cert.KernelIdeal.Facts₀.shapeCasts_S16384x4096_S8x2048x4096 (ix3 a b n) = Cert.KernelIdeal.Frm.okAt m c r n := by
  rw [shapeCast_apply (Cert.KernelIdeal.Frm.Ok m c) Cert.KernelIdeal.Facts₀.shapeCasts_S16384x4096_S8x2048x4096 (ix3 a b n) (ix2 r n)
    (by rewrite [Shape.rowMajor_val_two, Shape.rowMajor_val_three]
        show r.val * 4096 + n.val = (a.val * 2048 + b.val) * 4096 + n.val
        rw [hr]), Cert.KernelIdeal.Frm.Ok_ix2]

/-- The kernel's result is the reference's function of the five arguments. -/
theorem result_eq (c : Dev Cert.KernelIdeal.nD) :
    shapeCast Cert.KernelIdeal.S8x2048x4096 (Cert.KernelIdeal.Frm.Ok m c) Cert.KernelIdeal.Facts₀.shapeCasts_S16384x4096_S8x2048x4096
      = val_main_v33 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  funext i
  obtain ⟨a, b, n, rfl⟩ : ∃ (a : Fin 8) (b : Fin 2048) (n : Fin 4096), i = ix3 a b n := ⟨i 0, i 1, i 2, eq_ix3 i⟩
  have ha : a.val < 8 := a.isLt
  have hb : b.val < 2048 := b.isLt
  rw [ker_apply m c a b n ⟨a.val * 2048 + b.val, by omega⟩ rfl, ref_apply]
  unfold Cert.KernelIdeal.Frm.okAt
  refine congrArg₂ (· + ·) (Finset.sum_congr rfl fun k _ => ?_) (Cert.KernelIdeal.Frm.barr_apply m c n)
  rw [Cert.KernelIdeal.Frm.xarr_apply m c a b k ⟨a.val * 2048 + b.val, by omega⟩ rfl, warr_apply m c n k]

end Cert.Bridge

end
-- ==== Proof.lean ====
/-
  A dense layer over 6-bit packed weights, as a tiled matrix product: equivalence with its einsum reference over the
  extended reals.

  Both programs first unpack the weights on the host (each group of three packed words gives four 6-bit fields, by
  masks and one shift), subtract the per-row zero point and multiply by the per-row scale: the same lines applied to
  the same arguments, so the dequantized weights w are one function in both and are never opened. The reference then
  contracts the activations x (8 x 2048 x 4096) with w (4096 x 4096) over the last axis of both and adds the bias. The
  kernel flattens x to 16384 x 4096, narrows x and w to bf16 (the identity on the extended reals) and runs a
  16 x 4 x 4 grid of 1024 x 1024 blocks whose innermost coordinate is the reduction: an accumulator is reset to zero
  at reduction step 0, takes the product of the two blocks at every step, and at step 3 is stored, plus the bias row,
  into the output block; one reshape after the region gives the 8 x 2048 x 4096 result.

  So the kernel's entry (a, b, n) is ((((0 + s0) + s1) + s2) + s3) + bias n, with s_j the sum over the j-th run of
  1024 columns k of x(a, b, k) * w(n, k), and the reference's is the sum over all 4096 columns plus bias n. A sum over
  4096 columns is the sum of its four runs of 1024 in any commutative monoid, so the two agree on the extended reals
  with no appeal to finiteness: the precondition is not used.

  The three frames: the two kernel programs run through the region point by point, the accumulator carried by the
  region's invariant (Proof/K, and its copy for the idealized program, Proof/KI); the reference is host lines only,
  and its frame is its run with the result dropped. The idealization rewrote nothing, so there is nothing to preserve.
-/
import proofs.«404524_j81638738362815_1_alg».proof.Defs
import proofs.«404524_j81638738362815_1_alg».proof.Proof.K.Frame
import proofs.«404524_j81638738362815_1_alg».proof.Proof.KI.Frame
import proofs.«404524_j81638738362815_1_alg».proof.Proof.Bridge
import proofs.«404524_j81638738362815_1_alg».proof.Proof.Gen.ReferenceIdeal.Run
import proofs.«404524_j81638738362815_1_alg».proof.Proof.Gen.ReferenceIdeal.Read
import proofs.«404524_j81638738362815_1_alg».proof.Proof.Gen.Pre_finite_inputs
import Idealize.ShloMosaic.Adequacy
import Idealize.ShloMosaic.Init

noncomputable section

namespace Cert.Proof

open Idealize.ShloMosaic Idealize.SL.Sem

/-- The word-level kernel runs to the end and leaves its five arguments as launched. -/
theorem frame_kernel : Cert.frame_Kernel := fun m ρ _ => Cert.Kernel.Frm.frame m ρ

/-- So does the idealized kernel. -/
theorem frame_kernelIdeal : Cert.frame_KernelIdeal := fun m ρ _ => Cert.KernelIdeal.Frm.frame m ρ

/-- The reference is host lines only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the reshape of the product-with-bias
    array: the kernel by its run read back, the reference because its einsum plus bias is that function. -/
theorem algebraic : Cert.algebraic_KernelIdeal_ReferenceIdeal := by
  intro m ρ m' ρ' _ hagree
  refine ⟨fun c => shapeCast Cert.KernelIdeal.S8x2048x4096 (Cert.KernelIdeal.Frm.Ok m c)
    Cert.KernelIdeal.Facts₀.shapeCasts_S16384x4096_S8x2048x4096, Cert.KernelIdeal.Frm.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2.1, (hagree c).2.2.2.1,
    (hagree c).2.2.2.2]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
